-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S24x2048x64 : Shape := ⟨3, ![24, 2048, 64]⟩
abbrev S24x2048x2048 : Shape := ⟨3, ![24, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S2x12x2048x2048 : Shape := ⟨4, ![2, 12, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S24x2048x64, .f32⟩
  | .hbm, ⟨4, _⟩ => ⟨S24x2048x64, .f32⟩
  | .hbm, ⟨5, _⟩ => ⟨S24x2048x64, .f32⟩
  | .hbm, ⟨6, _⟩ => ⟨S24x2048x64, .f32⟩
  | .hbm, ⟨7, _⟩ => ⟨S24x2048x2048, .f32⟩
  | .hbm, ⟨8, _⟩ => ⟨S2x12x2048x64, .f32⟩
  | .hbm, ⟨9, _⟩ => ⟨S2x12x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x12x2048x64_S24x2048x64 : S2x12x2048x64.ShapeCasts S24x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  shapeCasts_S24x2048x64_S2x12x2048x64 : S24x2048x64.ShapeCasts S2x12x2048x64
  shapeCasts_S24x2048x2048_S2x12x2048x2048 : S24x2048x2048.ShapeCasts S2x12x2048x2048
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S24x2048x64.size a
  hwx0_0 : ∀ i : grid0.Coords, EltTy.bits .f32 = 32 ∨ (Rect.block (s := S24x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S24x2048x64.size a
  hwx0_1 : ∀ i : grid0.Coords, EltTy.bits .f32 = 32 ∨ (Rect.block (s := S24x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S24x2048x64.size a
  hwx0_2 : ∀ i : grid0.Coords, EltTy.bits .f32 = 32 ∨ (Rect.block (s := S24x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S24x2048x64.size a
  hwx0_3 : ∀ i : grid0.Coords, EltTy.bits .f32 = 32 ∨ (Rect.block (s := S24x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S24x2048x2048.size a
  hwx0_4 : ∀ i : grid0.Coords, EltTy.bits .f32 = 32 ∨ (Rect.block (s := S24x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S_ : Shape := ⟨0, ![]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x12x2048x2048, .f32⟩
  | .hbm, ⟨8, _⟩ => ⟨S2x12x2048x2048, .f32⟩
  | .hbm, ⟨9, _⟩ => ⟨S2x12x2048x2048, .f32⟩
  | .hbm, ⟨10, _⟩ => ⟨S_, .f32⟩
  | .hbm, ⟨11, _⟩ => ⟨S2x12x2048, .f32⟩
  | .hbm, ⟨12, _⟩ => ⟨S_, .f32⟩
  | .hbm, ⟨13, _⟩ => ⟨S2x12x2048, .f32⟩
  | .hbm, ⟨14, _⟩ => ⟨S2x12x2048, .f32⟩
  | .hbm, ⟨15, _⟩ => ⟨S2x12x2048x1, .f32⟩
  | .hbm, ⟨16, _⟩ => ⟨S2x12x2048x2048, .f32⟩
  | .hbm, ⟨17, _⟩ => ⟨S2x12x2048x2048, .f32⟩
  | .hbm, ⟨18, _⟩ => ⟨S2x12x2048x2048, .f32⟩
  | .hbm, ⟨19, _⟩ => ⟨S_, .f32⟩
  | .hbm, ⟨20, _⟩ => ⟨S2x12x2048, .f32⟩
  | .hbm, ⟨21, _⟩ => ⟨S2x12x2048x1, .f32⟩
  | .hbm, ⟨22, _⟩ => ⟨S2x12x2048x2048, .f32⟩
  | .hbm, ⟨23, _⟩ => ⟨S2x12x2048x2048, .f32⟩
  | .hbm, ⟨24, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.LibSoftmaxRow.lean ====
/-
  GENERAL LEMMAS: a softmax row on the extended reals, with no program in sight.

  A softmax row is taken from a row of scores s : ι → [-∞, +∞] in two spellings. With
  M = max over the row (a fold of max from -∞) and e j = exp (s j - M), L = ∑ e:
    * one reciprocal per row, then a product per entry:  e j · (1 / L);
    * a quotient per entry:                              e j / L.
  On the extended reals x / y is x · y⁻¹ only off y = 0, so the two agree as soon as L ≠ 0. When every score
  is a real number the row maximum is not +∞, every difference s j - M is not -∞, every exponential is
  positive, and so is their sum: that is where finiteness of the inputs is used. (At an all -∞ row the two
  spellings differ: 0 · (1/0) = 0 · +∞ = 0 against 0 / 0 = -∞.)

  Also here: products and finite sums of real numbers are real numbers, and the constants of the two
  programs: 1/√64 is the dyadic 1/8 because 64 = 8².
-/
import Idealize.ShloMosaic.PureOps.Ideal.Laws

noncomputable section

namespace Cert.Attn

open Idealize.ShloMosaic

/-! ## Real numbers among the extended reals -/

/-- An extended real that is neither infinity: a real number. -/
def IsReal (x : EReal) : Prop := x ≠ ⊤ ∧ x ≠ ⊥

theorem IsReal.coe (r : ℝ) : IsReal (r : EReal) := ⟨EReal.coe_ne_top r, EReal.coe_ne_bot r⟩

theorem IsReal.exists {x : EReal} (h : IsReal x) : ∃ r : ℝ, x = (r : EReal) := by
  induction x using EReal.rec with
  | bot => exact absurd rfl h.2
  | top => exact absurd rfl h.1
  | coe r => exact ⟨r, rfl⟩

theorem IsReal.zero : IsReal 0 := by
  rw [← EReal.coe_zero]; exact IsReal.coe 0

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

/-- A finite sum of real numbers is a real number. -/
theorem IsReal.sum {ι : Type} (t : Finset ι) (f : ι → EReal) (h : ∀ i ∈ t, IsReal (f i)) : IsReal (∑ i ∈ t, f i) :=
  Finset.sum_induction f IsReal (fun _ _ => IsReal.add) IsReal.zero h

/-! ## The exponential and the row maximum -/

theorem exp_nonneg (x : EReal) : 0 ≤ Ideal.exp x := by
  induction x using EReal.rec with
  | bot => exact le_refl _
  | top => exact le_top
  | coe r => rw [Ideal.exp_coe]; exact_mod_cast (Real.exp_pos r).le

theorem exp_pos_of_ne_bot {x : EReal} (h : x ≠ ⊥) : 0 < Ideal.exp x := by
  induction x using EReal.rec with
  | bot => exact absurd rfl h
  | top => rw [Ideal.exp_top]; exact EReal.zero_lt_top
  | coe r => rw [Ideal.exp_coe]; exact_mod_cast Real.exp_pos r

theorem sub_ne_bot {x y : EReal} (hx : x ≠ ⊥) (hy : y ≠ ⊤) : x - y ≠ ⊥ := by
  rw [sub_eq_add_neg]
  exact EReal.add_ne_bot_iff.mpr ⟨hx, fun h => hy (EReal.neg_eq_bot_iff.mp h)⟩

variable {ι : Type} [Fintype ι]

/-- The maximum of a row, as both programs take it: the fold of max from -∞ over the row. -/
def rowMax (s : ι → EReal) : EReal := (Finset.univ : Finset ι).fold max ⊥ s

theorem rowMax_ne_top (s : ι → EReal) (hs : ∀ j, s j ≠ ⊤) : rowMax s ≠ ⊤ :=
  ((Finset.fold_max_lt (b := (⊥ : EReal)) (f := s) (s := Finset.univ) ⊤).mpr
    ⟨bot_lt_top, fun j _ => lt_top_iff_ne_top.mpr (hs j)⟩).ne

/-- The row's exponentials, shifted by the row maximum. -/
def expRow (s : ι → EReal) (j : ι) : EReal := Ideal.exp (s j - rowMax s)

/-- Their sum: the softmax denominator. -/
def denom (s : ι → EReal) : EReal := ∑ k, expRow s k

/-- For a row of real scores the denominator is positive: every term is nonnegative and each is positive. -/
theorem denom_pos [Nonempty ι] (s : ι → EReal) (hs : ∀ j, IsReal (s j)) : 0 < denom s := by
  obtain ⟨j₀⟩ := ‹Nonempty ι›
  have hM : rowMax s ≠ ⊤ := rowMax_ne_top s fun j => (hs j).1
  have h0 : 0 < expRow s j₀ := exp_pos_of_ne_bot (sub_ne_bot (hs j₀).2 hM)
  exact lt_of_lt_of_le h0 (Finset.single_le_sum (f := expRow s) (fun k _ => exp_nonneg _) (Finset.mem_univ j₀))

/-- A product with the reciprocal is the quotient, off a zero divisor. -/
theorem mul_recip_eq_div (x L : EReal) (hL : L ≠ 0) : x * Ideal.div 1 L = Ideal.div x L := by
  unfold Ideal.div
  rw [if_neg hL, if_neg hL, one_mul]

/-- A softmax row with one reciprocal per row. -/
def attnRow (s : ι → EReal) (j : ι) : EReal := expRow s j * Ideal.div 1 (denom s)

/-- For a row of real scores it is the softmax row with a quotient per entry. -/
theorem attnRow_eq_div [Nonempty ι] (s : ι → EReal) (hs : ∀ j, IsReal (s j)) (j : ι) :
    attnRow s j = Ideal.div (expRow s j) (denom s) :=
  mul_recip_eq_div _ _ (denom_pos s hs).ne'

/-! ## The programs' constants -/

theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

theorem ofBits_negInf : Ideal.ofBits .f32 0xFF800000#32 = ⊥ := by
  simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_sixtyFour : Ideal.ofBits .f32 0x42800000#32 = ((64 : ℝ) : EReal) := by
  simp [Ideal.ofBits, Ideal.ieee, -EReal.coe_mul]; norm_num

/-- The scale: 1 / √64 is the dyadic 1/8, since 64 = 8². -/
theorem scale_eq :
    Ideal.div (Ideal.ofBits .f32 0x3F800000#32) (Ideal.sqrt (Ideal.ofBits .f32 0x42800000#32)) = Ideal.ofBits .f32 0x3E000000#32 := by
  have h8 : Real.sqrt 64 = 8 := by
    rw [show (64 : ℝ) = 8 ^ 2 by norm_num]
    exact Real.sqrt_sq (by norm_num)
  rw [ofBits_one, ofBits_sixtyFour, ofBits_eighth, Ideal.sqrt_coe, if_neg (by norm_num), h8,
    Ideal.div_coe (by norm_num : (8 : ℝ) ≠ 0), one_mul]

theorem isReal_eighth : IsReal (Ideal.ofBits .f32 0x3E000000#32) := by
  rw [ofBits_eighth]; exact IsReal.coe _

end Cert.Attn

end
-- ==== Proof.AttnSpec.lean ====
/-
  The specification of the attention certificate: what both programs compute, index by index, on the extended reals.

  For queries, keys and values q, k, v : [2, 12, 2048, 64] (batch, head, position, feature):
    score b h r j = (∑ d, q[b,h,r,d] · k[b,h,j,d]) · (1/8)
    attn[b,h,r,j] = the softmax of the row j ↦ score b h r j, at j
    out[b,h,r,d]  = ∑ j, attn[b,h,r,j] · v[b,h,j,d]
  The kernel works on the arrays with batch and head flattened to one axis of 24 (g = 12·b + h), so the same three
  functions are stated over [24, 2048, ·] too, and the two statements are related through the reshape: a row-major
  reshape [2,12,n,m] ↔ [24,n,m] only renames (b, h) as 12·b + h.
-/
import proofs.«424106_j35167192219950_3_alg».proof.Proof.LibSoftmaxRow
import Idealize.ShloMosaic.Lib.ValueIdx
import Idealize.ShloMosaic.Lib.Pipeline.Value

noncomputable section

namespace Cert.Attn

open Idealize.ShloMosaic Idealize.ShloMosaic.ValueIdx

/-- The scale both programs multiply the scores by: the word of 1/8. -/
abbrev c8 : EReal := Ideal.ofBits .f32 0x3E000000#32

/-! ## Batch and head flattened: [24, 2048, ·] -/

/-- The scores of query row r of slab g against every key of the slab. -/
def score3 (Q K : (⟨3, ![24, 2048, 64]⟩ : Shape).Idx → EReal) (g : Fin 24) (r : Fin 2048) (j : Fin 2048) : EReal :=
  (∑ d : Fin 64, Q (ix3 g r d) * K (ix3 g j d)) * c8

/-- The attention weights: each row of scores through the softmax. -/
def attn3 (Q K : (⟨3, ![24, 2048, 64]⟩ : Shape).Idx → EReal) : (⟨3, ![24, 2048, 2048]⟩ : Shape).Idx → EReal :=
  fun i => attnRow (score3 Q K (i 0) (i 1)) (i 2)

/-- The attended values: each row of weights against the slab's values. -/
def out3 (Q K V : (⟨3, ![24, 2048, 64]⟩ : Shape).Idx → EReal) : (⟨3, ![24, 2048, 64]⟩ : Shape).Idx → EReal :=
  fun i => ∑ j : Fin 2048, attn3 Q K (ix3 (i 0) (i 1) j) * V (ix3 (i 0) j (i 2))

/-! ## Batch and head apart: [2, 12, 2048, ·] -/

def score4 (q k : (⟨4, ![2, 12, 2048, 64]⟩ : Shape).Idx → EReal) (b : Fin 2) (h : Fin 12) (r : Fin 2048) (j : Fin 2048) : EReal :=
  (∑ d : Fin 64, q (ix4 b h r d) * k (ix4 b h j d)) * c8

def attn4 (q k : (⟨4, ![2, 12, 2048, 64]⟩ : Shape).Idx → EReal) : (⟨4, ![2, 12, 2048, 2048]⟩ : Shape).Idx → EReal :=
  fun i => attnRow (score4 q k (i 0) (i 1) (i 2)) (i 3)

def out4 (q k v : (⟨4, ![2, 12, 2048, 64]⟩ : Shape).Idx → EReal) : (⟨4, ![2, 12, 2048, 64]⟩ : Shape).Idx → EReal :=
  fun i => ∑ j : Fin 2048, attn4 q k (ix4 (i 0) (i 1) (i 2) j) * v (ix4 (i 0) (i 1) j (i 3))

/-! ## The reshape between them -/

/-- Batch b and head h as one slab number, 12·b + h. -/
def slab (b : Fin 2) (h : Fin 12) : Fin 24 := ⟨b.val * 12 + h.val, by have := b.isLt; have := h.isLt; omega⟩

/-- [2, 12, n, m] reshaped to [24, n, m] reads, at (12·b + h, r, d), the operand at (b, h, r, d). -/
theorem flatten_apply {α : Type} {n m : Nat} (x : (⟨4, ![2, 12, n, m]⟩ : Shape).Idx → α)
    (hc : (⟨4, ![2, 12, n, m]⟩ : Shape).ShapeCasts ⟨3, ![24, n, m]⟩) (b : Fin 2) (h : Fin 12) (r : Fin n) (d : Fin m) :
    shapeCast ⟨3, ![24, n, m]⟩ x hc (ix3 (slab b h) r d) = x (ix4 b h r d) :=
  shapeCast_apply x hc _ _ (by
    rw [Shape.rowMajor_val_four, Shape.rowMajor_val_three]
    rfl)

/-- [24, n, m] reshaped to [2, 12, n, m] reads, at (b, h, r, d), the operand at (12·b + h, r, d). -/
theorem unflatten_apply {α : Type} {n m : Nat} (X : (⟨3, ![24, n, m]⟩ : Shape).Idx → α)
    (hc : (⟨3, ![24, n, m]⟩ : Shape).ShapeCasts ⟨4, ![2, 12, n, m]⟩) (b : Fin 2) (h : Fin 12) (r : Fin n) (d : Fin m) :
    shapeCast ⟨4, ![2, 12, n, m]⟩ X hc (ix4 b h r d) = X (ix3 (slab b h) r d) :=
  shapeCast_apply X hc _ _ (by
    rw [Shape.rowMajor_val_four, Shape.rowMajor_val_three]
    rfl)

variable (hf : (⟨4, ![2, 12, 2048, 64]⟩ : Shape).ShapeCasts ⟨3, ![24, 2048, 64]⟩)

/-- The flattened scores of the flattened arrays are the scores. -/
theorem score3_flatten (q k : (⟨4, ![2, 12, 2048, 64]⟩ : Shape).Idx → EReal) (b : Fin 2) (h : Fin 12) (r : Fin 2048) :
    score3 (shapeCast ⟨3, ![24, 2048, 64]⟩ q hf) (shapeCast ⟨3, ![24, 2048, 64]⟩ k hf) (slab b h) r = score4 q k b h r := by
  funext j
  unfold score3 score4
  refine congrArg (· * c8) (Finset.sum_congr rfl fun d _ => ?_)
  rw [flatten_apply q hf, flatten_apply k hf]

/-- The weights computed on the flattened arrays, reshaped back, are the weights. -/
theorem attn4_of_flat (q k : (⟨4, ![2, 12, 2048, 64]⟩ : Shape).Idx → EReal)
    (hu : (⟨3, ![24, 2048, 2048]⟩ : Shape).ShapeCasts ⟨4, ![2, 12, 2048, 2048]⟩) :
    shapeCast ⟨4, ![2, 12, 2048, 2048]⟩ (attn3 (shapeCast ⟨3, ![24, 2048, 64]⟩ q hf) (shapeCast ⟨3, ![24, 2048, 64]⟩ k hf)) hu
      = attn4 q k := by
  funext i
  obtain ⟨b, h, r, j, rfl⟩ : ∃ (b : Fin 2) (h : Fin 12) (r : Fin 2048) (j : Fin 2048), i = ix4 b h r j :=
    ⟨i 0, i 1, i 2, i 3, eq_ix4 i⟩
  rw [unflatten_apply]
  show attnRow (score3 _ _ (slab b h) r) j = attnRow (score4 q k b h r) j
  rw [score3_flatten hf]

/-- The attended values computed on the flattened arrays, reshaped back, are the attended values. -/
theorem out4_of_flat (q k v : (⟨4, ![2, 12, 2048, 64]⟩ : Shape).Idx → EReal)
    (hu : (⟨3, ![24, 2048, 64]⟩ : Shape).ShapeCasts ⟨4, ![2, 12, 2048, 64]⟩) :
    shapeCast ⟨4, ![2, 12, 2048, 64]⟩ (out3 (shapeCast ⟨3, ![24, 2048, 64]⟩ q hf) (shapeCast ⟨3, ![24, 2048, 64]⟩ k hf)
      (shapeCast ⟨3, ![24, 2048, 64]⟩ v hf)) hu = out4 q k v := by
  funext i
  obtain ⟨b, h, r, d, rfl⟩ : ∃ (b : Fin 2) (h : Fin 12) (r : Fin 2048) (d : Fin 64), i = ix4 b h r d :=
    ⟨i 0, i 1, i 2, i 3, eq_ix4 i⟩
  rw [unflatten_apply]
  show (∑ j : Fin 2048, attnRow (score3 _ _ (slab b h) r) j * shapeCast ⟨3, ![24, 2048, 64]⟩ v hf (ix3 (slab b h) j d))
    = ∑ j : Fin 2048, attnRow (score4 q k b h r) j * v (ix4 b h j d)
  rw [score3_flatten hf]
  exact Finset.sum_congr rfl fun j _ => by rw [flatten_apply v hf]

/-! ## Real inputs give real scores -/

theorem score4_isReal (q k : (⟨4, ![2, 12, 2048, 64]⟩ : Shape).Idx → EReal) (hq : ∀ i, IsReal (q i)) (hk : ∀ i, IsReal (k i))
    (b : Fin 2) (h : Fin 12) (r j : Fin 2048) : IsReal (score4 q k b h r j) :=
  IsReal.mul (IsReal.sum _ _ fun d _ => IsReal.mul (hq _) (hk _)) isReal_eighth

/-- So on real inputs each weight is also the quotient form of the softmax. -/
theorem attn4_eq_div (q k : (⟨4, ![2, 12, 2048, 64]⟩ : Shape).Idx → EReal) (hq : ∀ i, IsReal (q i)) (hk : ∀ i, IsReal (k i))
    (b : Fin 2) (h : Fin 12) (r j : Fin 2048) :
    attn4 q k (ix4 b h r j) = Ideal.div (expRow (score4 q k b h r) j) (denom (score4 q k b h r)) :=
  attnRow_eq_div (ι := Fin 2048) _ (fun j' => score4_isReal q k hq hk b h r j') j

end Cert.Attn

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.BlockAttn.lean ====
/-
  What the kernel body computes on one grid point's blocks, read at an index of the block, on the extended reals.

  The body takes a tile of 1024 query rows x0 : [1, 1024, 64] and the slab's keys and values x1, x2 : [1, 2048, 64]. With
    s p j = (∑ d, x0[0,p,d] · x1[0,j,d]) · (1/8)                   (the tile's scores)
  it stores, at (0, p, j) of the weights block, the softmax of the row j ↦ s p j at j in its one-reciprocal-per-row
  spelling, and at (0, p, d) of the output block the sum over j of those weights times x2[0,j,d].

  The body's value is first cut into named intermediate values (scores, row maxima, shifted exponentials, row sums,
  weights), each the printed operations of the ones before it, so that the printed payloads are these by
  definitional unfolding; each is then read at an index from the ones before it.
-/
import proofs.«424106_j35167192219950_3_alg».proof.Proof.Gen.KernelIdeal.Skeleton
import proofs.«424106_j35167192219950_3_alg».proof.Proof.AttnSpec
import proofs.«424106_j35167192219950_3_alg».proof.Proof.LibColumn
import Idealize.ShloMosaic.Lib.ValueLayout
import Idealize.ShloMosaic.PureOps.Ideal.Laws

noncomputable section

namespace Cert.KernelIdeal.BlockValue

open Idealize.ShloMosaic Idealize.ShloMosaic.ValueIdx Cert.KernelIdeal Cert.KernelIdeal.Gen Cert.Attn Cert.Column

/-- A reduced row index with the column put back is (row, column). -/
theorem lift_row (h : S1024x2048.Reduces [1] S1024) (p : Fin 1024) (k : Fin (S1024x2048.size 1)) :
    h.lift (ix1 p) k = ix2 p (⟨k.val, k.isLt⟩ : Fin 2048) := by
  funext c; apply Fin.ext
  match c with
  | ⟨0, _⟩ => rfl
  | ⟨1, _⟩ => rfl

/-! ## The body's intermediate values -/

variable (x0 : FVec Ideal S1x1024x64 .f32) (x1 : FVec Ideal S1x2048x64 .f32) (x2 : FVec Ideal S1x2048x64 .f32)

/-- The tile's scaled scores. -/
def scores : FVec Ideal S1024x2048 .f32 :=
  mulf (matmul dot_S1024x64_S2048x64_S1024x2048_1_1_0_0_n_n none (shapeCast S1024x64 x0 shapeCasts_S1x1024x64_S1024x64)
      (shapeCast S2048x64 x1 shapeCasts_S1x2048x64_S2048x64) (constant S1024x2048 .f32 0x00000000#32))
    (broadcast S1024x2048 (Scalar.ofBits .f32 0x3E000000#32))

/-- Each row's maximum. -/
def rowMaxes : FVec Ideal S1024 .f32 :=
  multiReduction .maximumf [1] S1024 (scores x0 x1) 0xFF800000#32 reduces_S1024x2048_S1024 (.inl rfl) rfl

/-- The exponentials of the scores shifted by their row's maximum. -/
def exps : FVec Ideal S1024x2048 .f32 :=
  exp (subf (scores x0 x1)
    (broadcastTo S1024x2048 (shapeCast S1024x1 (rowMaxes x0 x1) shapeCasts_S1024_S1024x1) broadcasts_S1024x1_S1024x2048))

/-- Each row's sum of exponentials. -/
def rowSums : FVec Ideal S1024 .f32 :=
  multiReduction .add [1] S1024 (exps x0 x1) 0x00000000#32 reduces_S1024x2048_S1024 (.inl rfl) rfl

/-- The weights: each exponential times its row's reciprocal sum. -/
def weights : FVec Ideal S1024x2048 .f32 :=
  mulf (exps x0 x1)
    (broadcastTo S1024x2048
      (divf (broadcast S1024x1 (Scalar.ofBits .f32 0x3F800000#32)) (shapeCast S1024x1 (rowSums x0 x1) shapeCasts_S1024_S1024x1))
      broadcasts_S1024x1_S1024x2048)

/-- The weights against the values. -/
def attended : FVec Ideal S1024x64 .f32 :=
  matmul dot_S1024x2048_S2048x64_S1024x64_1_0_0_1_n_n none (weights x0 x1)
    (shapeCast S2048x64 x2 shapeCasts_S1x2048x64_S2048x64) (constant S1024x64 .f32 0x00000000#32)

/-- The printed payloads are these values, with the block's leading unit axis put back. -/
theorem pay1_eq : k0_pay1 x0 x1 = weights x0 x1 := rfl
theorem pay2_eq : k0_pay2 x0 x1 = shapeCast S1x1024x2048 (weights x0 x1) shapeCasts_S1024x2048_S1x1024x2048 := rfl
theorem pay3_eq : k0_pay3 x0 x1 x2 = shapeCast S1x1024x64 (attended x0 x1 x2) shapeCasts_S1024x64_S1x1024x64 := rfl

/-! ## The two matrix products' operand indices, axis by axis -/

theorem lhsS_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhsS_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhsS_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhsS_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem lhsO_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhsO_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsO_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhsO_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## Each value at an index -/

/-- The tile's scores as a function of the row and the key. -/
def bscore (p : Fin 1024) (j : Fin 2048) : EReal := (∑ d : Fin 64, x0 (ix3 (0 : Fin 1) p d) * x1 (ix3 (0 : Fin 1) j d)) * c8

theorem scores_apply (p : Fin 1024) (j : Fin 2048) : scores x0 x1 (ix2 p j) = bscore x0 x1 p j := by
  unfold scores bscore
  rw [mulf_apply, broadcast_apply]
  refine congrArg (· * c8) ?_
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 p j) ((contrEquiv1 dot_S1024x64_S2048x64_S1024x2048_1_1_0_0_n_n 64 rfl rfl).symm d) = ix2 p d := funext fun a => Fin.ext (by
    match a with
    | ⟨0, _⟩ => exact lhsS_0 _ _
    | ⟨1, _⟩ => exact (lhsS_1 _ _).trans hk)
  have er : dot_S1024x64_S2048x64_S1024x2048_1_1_0_0_n_n.rhsIdx (ix2 p j) ((contrEquiv1 dot_S1024x64_S2048x64_S1024x2048_1_1_0_0_n_n 64 rfl rfl).symm d) = ix2 j d := funext fun a => Fin.ext (by
    match a with
    | ⟨0, _⟩ => exact rhsS_0 _ _
    | ⟨1, _⟩ => exact (rhsS_1 _ _).trans hk)
  rw [el, er, shapeCast_1ab_ab_apply, shapeCast_1ab_ab_apply]

theorem rowMaxes_apply (p : Fin 1024) : rowMaxes x0 x1 (ix1 p) = rowMax (bscore x0 x1 p) := by
  unfold rowMaxes rowMax
  refine (Ideal.multiReduction_maximumf_single (scores x0 x1) 0xFF800000#32 reduces_S1024x2048_S1024 (.inl rfl) rfl (ix1 p)).trans ?_
  have e : (scores x0 x1 ∘ reduces_S1024x2048_S1024.lift (ix1 p)) = bscore x0 x1 p := funext fun k => by
    show scores x0 x1 (reduces_S1024x2048_S1024.lift (ix1 p) k) = _
    rw [lift_row, scores_apply]
    rfl
  rw [e]
  show (Finset.univ : Finset (Fin 2048)).fold max (Ideal.ofBits .f32 0xFF800000#32) (bscore x0 x1 p) = _
  rw [ofBits_negInf]

theorem exps_apply (p : Fin 1024) (j : Fin 2048) : exps x0 x1 (ix2 p j) = expRow (bscore x0 x1 p) j := by
  unfold exps expRow
  show Ideal.exp (scores x0 x1 (ix2 p j) - broadcastTo S1024x2048 _ broadcasts_S1024x1_S1024x2048 (ix2 p j)) = _
  rw [broadcastTo_a1_ab_apply, shapeCast_a_a1_apply, scores_apply, rowMaxes_apply]

theorem rowSums_apply (p : Fin 1024) : rowSums x0 x1 (ix1 p) = denom (bscore x0 x1 p) := by
  unfold rowSums denom
  refine (Ideal.multiReduction_add_single (exps x0 x1) 0x00000000#32 reduces_S1024x2048_S1024 (.inl rfl) rfl (ix1 p)).trans ?_
  refine Finset.sum_congr rfl fun k _ => ?_
  rw [lift_row, exps_apply]
  rfl

theorem weights_apply (p : Fin 1024) (j : Fin 2048) : weights x0 x1 (ix2 p j) = attnRow (bscore x0 x1 p) j := by
  unfold weights attnRow
  rw [mulf_apply, broadcastTo_a1_ab_apply, divf_apply, broadcast_apply, shapeCast_a_a1_apply, exps_apply, rowSums_apply]
  show expRow (bscore x0 x1 p) j * Ideal.div (Ideal.ofBits .f32 0x3F800000#32) _ = _
  rw [ofBits_one]

theorem attended_apply (p : Fin 1024) (d : Fin 64) :
    attended x0 x1 x2 (ix2 p d) = ∑ j : Fin 2048, attnRow (bscore x0 x1 p) j * x2 (ix3 (0 : Fin 1) j d) := by
  unfold attended
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 p d) ((contrEquiv1 dot_S1024x2048_S2048x64_S1024x64_1_0_0_1_n_n 2048 rfl rfl).symm j) = ix2 p j := funext fun a => Fin.ext (by
    match a with
    | ⟨0, _⟩ => exact lhsO_0 _ _
    | ⟨1, _⟩ => exact (lhsO_1 _ _).trans hk)
  have er : dot_S1024x2048_S2048x64_S1024x64_1_0_0_1_n_n.rhsIdx (ix2 p d) ((contrEquiv1 dot_S1024x2048_S2048x64_S1024x64_1_0_0_1_n_n 2048 rfl rfl).symm j) = ix2 j d := funext fun a => Fin.ext (by
    match a with
    | ⟨0, _⟩ => exact (rhsO_0 _ _).trans hk
    | ⟨1, _⟩ => exact rhsO_1 _ _)
  rw [el, er, weights_apply, shapeCast_1ab_ab_apply]

/-! ## The two stored blocks at an index -/

theorem pay2_apply (u : Fin 1) (p : Fin 1024) (j : Fin 2048) :
    k0_pay2 (F := Ideal) x0 x1 (ix3 u p j) = attnRow (bscore x0 x1 p) j := by
  rw [pay2_eq, shapeCast_ab_1ab_apply, weights_apply]

theorem pay3_apply (u : Fin 1) (p : Fin 1024) (d : Fin 64) :
    k0_pay3 (F := Ideal) x0 x1 x2 (ix3 u p d) = ∑ j : Fin 2048, attnRow (bscore x0 x1 p) j * x2 (ix3 (0 : Fin 1) j d) := by
  rw [pay3_eq, shapeCast_ab_1ab_apply, attended_apply]

end Cert.KernelIdeal.BlockValue

end
-- ==== Proof.KernelValue.lean ====
/-
  The kernel's two result arrays after the run, as functions of the argument arrays.

  The grid has 48 points t = (g, h): slab g of 24 and half h of the 2048 query rows. At point (g, h) the pipeline hands the
  body rows 1024·h … 1024·h + 1023 of slab g of the queries and the whole slab g of the keys and of the values, and writes
  back rows 1024·h … of slab g of the two results. So what a point writes back is its block of ONE function of the whole
  arrays (the flattened specification, attn3 and out3), the blocks of the 48 points cover both result arrays, and the
  arrays end holding those functions. The host reshapes before and after the region only rename (batch, head) as the slab.
-/
import proofs.«424106_j35167192219950_3_alg».proof.Proof.Gen.KernelIdeal.Frame
import proofs.«424106_j35167192219950_3_alg».proof.Proof.BlockAttn
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.BlockValue Cert.Attn

variable (m : (ℓ : Loc nD τ sig) → Buf (Elt Ideal) ℓ) (ρ : Dev nD → PrngReg)

theorem hz3 : (![0, 0, 0] : Fin 3 → Nat) = fun _ => 0 := funext fun a => by fin_cases a <;> rfl

/-! ## The index maps over the grid -/

/-- Decided once over the 48 points: queries and both results move together (slab, half, 0); keys and values stay on
    the slab's one block (slab, 0, 0). -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) ≤ 23 ∧ win0_4.index t (1 : Fin 3) ≤ 1 :=
  (by decide +kernel : ∀ t : Fin grid0.N, _)

/-- Every (slab, half) is some point's block index, for both results. -/
theorem idx_onto4 : ∀ (g : Fin 24) (h : Fin 2), ∃ t : Fin cfg0.N, win0_4.index t = ![g.val, h.val, 0] :=
  (by decide +kernel : ∀ (g : Fin 24) (h : Fin 2), ∃ t : Fin grid0.N, win0_4.index t = ![g.val, h.val, 0])
theorem idx_onto3 : ∀ (g : Fin 24) (h : Fin 2), ∃ t : Fin cfg0.N, win0_3.index t = ![g.val, h.val, 0] :=
  (by decide +kernel : ∀ (g : Fin 24) (h : Fin 2), ∃ t : Fin grid0.N, win0_3.index t = ![g.val, h.val, 0])

/-! ## One point's blocks against the whole arrays -/

/-- The weights block: if the query block is rows of Q and the key block is slab rows of K as the output block's
    position says, the stored block is the weights function at that position. -/
theorem weights_block (Q K : S24x2048x64.Idx → EReal) (x0 : FVec Ideal S1x1024x64 .f32) (x1 : FVec Ideal S1x2048x64 .f32)
    (e0 : S1x1024x64.Idx → S24x2048x64.Idx) (e1 : S1x2048x64.Idx → S24x2048x64.Idx)
    (h0 : x0 = fun z => Q (e0 z)) (h1 : x1 = fun z => K (e1 z))
    (y : S1x1024x2048.Idx) (i : S24x2048x2048.Idx)
    (he0 : ∀ d : Fin 64, e0 (ix3 (0 : Fin 1) (y 1) d) = ix3 (i 0) (i 1) d)
    (he1 : ∀ (j : Fin 2048) (d : Fin 64), e1 (ix3 (0 : Fin 1) j d) = ix3 (i 0) j d)
    (hj : (y 2).val = (i 2).val) :
    k0_pay2 (F := Ideal) x0 x1 y = attn3 Q K i := by
  subst h0 h1
  obtain ⟨u, p, j, rfl⟩ : ∃ (u : Fin 1) (p : Fin 1024) (j : Fin 2048), y = ix3 u p j := ⟨y 0, y 1, y 2, eq_ix3 y⟩
  rw [pay2_apply]
  have he0' : ∀ d : Fin 64, e0 (ix3 (0 : Fin 1) p d) = ix3 (i 0) (i 1) d := he0
  have hs : bscore (fun z => Q (e0 z)) (fun z => K (e1 z)) p = score3 Q K (i 0) (i 1) := funext fun j' => by
    unfold bscore score3
    refine congrArg (· * c8) (Finset.sum_congr rfl fun d _ => ?_)
    show Q (e0 (ix3 (0 : Fin 1) p d)) * K (e1 (ix3 (0 : Fin 1) j' d)) = _
    rw [he0' d, he1 j' d]
    rfl
  have hj' : j = i 2 := Fin.ext hj
  rw [hs, hj']
  rfl

/-- The output block likewise, with the value block slab rows of V. -/
theorem out_block (Q K V : S24x2048x64.Idx → EReal) (x0 : FVec Ideal S1x1024x64 .f32) (x1 x2 : FVec Ideal S1x2048x64 .f32)
    (e0 : S1x1024x64.Idx → S24x2048x64.Idx) (e1 e2 : S1x2048x64.Idx → S24x2048x64.Idx)
    (h0 : x0 = fun z => Q (e0 z)) (h1 : x1 = fun z => K (e1 z)) (h2 : x2 = fun z => V (e2 z))
    (y : S1x1024x64.Idx) (i : S24x2048x64.Idx)
    (he0 : ∀ d : Fin 64, e0 (ix3 (0 : Fin 1) (y 1) d) = ix3 (i 0) (i 1) d)
    (he1 : ∀ (j : Fin 2048) (d : Fin 64), e1 (ix3 (0 : Fin 1) j d) = ix3 (i 0) j d)
    (he2 : ∀ (j : Fin 2048) (d : Fin 64), e2 (ix3 (0 : Fin 1) j d) = ix3 (i 0) j d)
    (hd : (y 2).val = (i 2).val) :
    k0_pay3 (F := Ideal) x0 x1 x2 y = out3 Q K V i := by
  subst h0 h1 h2
  obtain ⟨u, p, d, rfl⟩ : ∃ (u : Fin 1) (p : Fin 1024) (d : Fin 64), y = ix3 u p d := ⟨y 0, y 1, y 2, eq_ix3 y⟩
  rw [pay3_apply]
  have he0' : ∀ d' : Fin 64, e0 (ix3 (0 : Fin 1) p d') = ix3 (i 0) (i 1) d' := he0
  have hs : bscore (fun z => Q (e0 z)) (fun z => K (e1 z)) p = score3 Q K (i 0) (i 1) := funext fun j' => by
    unfold bscore score3
    refine congrArg (· * c8) (Finset.sum_congr rfl fun d' _ => ?_)
    show Q (e0 (ix3 (0 : Fin 1) p d')) * K (e1 (ix3 (0 : Fin 1) j' d')) = _
    rw [he0' d', he1 j' d']
    rfl
  have hd' : d = i 2 := Fin.ext hd
  rw [hs, hd']
  unfold out3 attn3
  refine Finset.sum_congr rfl fun j _ => ?_
  show _ * V (e2 (ix3 (0 : Fin 1) j (i 2))) = _
  rw [he2 j (i 2)]
  rfl

/-! ## What a point writes back -/

/-- Point t writes back its block of the weights function of the queries and keys as the region finds them. -/
theorem flushed4_eq (c : Dev nD) (t : Fin cfg0.N) :
    (dats m 0 c).flushed 4 t = ((cfg0.win 4).blk t).view.read (Elt Ideal) (attn3 (V m c main_v0) (V m c main_v1)) := by
  show (cfg0.win 4).cut (grid0.coords t) ((dats m 0 c).after 4 t) = _
  rw [after0_4]
  unfold out0_4
  rw [View.canon_unit_zero hz3]
  simp only [View.ld_unit_zero (S := S1x1024x64) hz3, View.ld_unit_zero (S := S1x2048x64) hz3]
  obtain ⟨a0, a1, a2, b0, b1, b2, c0, c1, c2, d0, d1, d2, f2, fg, fh⟩ := idx_facts t
  funext y
  show k0_pay2 (F := Ideal) (iblk m c 0 t) (iblk m c 1 t) y = attn3 (V m c main_v0) (V m c main_v1) (((cfg0.win 4).blk t).view.emb y)
  refine weights_block (V m c main_v0) (V m c main_v1) (iblk m c 0 t) (iblk m c 1 t)
    (((cfg0.win 0).blk t).view.emb) (((cfg0.win 1).blk t).view.emb) rfl rfl y (((cfg0.win 4).blk t).view.emb y) ?_ ?_ ?_
  · intro d; funext a; apply Fin.ext
    match a with
    | ⟨0, _⟩ => show win0_0.index t (0 : Fin 3) * 1 + 1 * 0 = win0_4.index t (0 : Fin 3) * 1 + 1 * (y 0).val; have hy : (y 0).val < 1 := (y 0).isLt; omega
    | ⟨1, _⟩ => show win0_0.index t (1 : Fin 3) * 1024 + 1 * (y 1).val = win0_4.index t (1 : Fin 3) * 1024 + 1 * (y 1).val; omega
    | ⟨2, _⟩ => show win0_0.index t (2 : Fin 3) * 64 + 1 * d.val = d.val; omega
  · intro j d; funext a; apply Fin.ext
    match a with
    | ⟨0, _⟩ => show win0_1.index t (0 : Fin 3) * 1 + 1 * 0 = win0_4.index t (0 : Fin 3) * 1 + 1 * (y 0).val; have hy : (y 0).val < 1 := (y 0).isLt; omega
    | ⟨1, _⟩ => show win0_1.index t (1 : Fin 3) * 2048 + 1 * j.val = j.val; omega
    | ⟨2, _⟩ => show win0_1.index t (2 : Fin 3) * 64 + 1 * d.val = d.val; omega
  · show (y 2).val = win0_4.index t (2 : Fin 3) * 2048 + 1 * (y 2).val; omega

/-- Point t writes back its block of the attended-values function of the three arrays as the region finds them. -/
theorem flushed3_eq (c : Dev nD) (t : Fin cfg0.N) :
    (dats m 0 c).flushed 3 t
      = ((cfg0.win 3).blk t).view.read (Elt Ideal) (out3 (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  obtain ⟨a0, a1, a2, b0, b1, b2, c0, c1, c2, d0, d1, d2, f2, fg, fh⟩ := idx_facts t
  funext y
  show k0_pay3 (F := Ideal) (iblk m c 0 t) (iblk m c 1 t) (iblk m c 2 t) y
    = out3 (V m c main_v0) (V m c main_v1) (V m c main_v2) (((cfg0.win 3).blk t).view.emb y)
  refine out_block (V m c main_v0) (V m c main_v1) (V m c main_v2) (iblk m c 0 t) (iblk m c 1 t) (iblk m c 2 t)
    (((cfg0.win 0).blk t).view.emb) (((cfg0.win 1).blk t).view.emb) (((cfg0.win 2).blk t).view.emb) rfl rfl rfl
    y (((cfg0.win 3).blk t).view.emb y) ?_ ?_ ?_ ?_
  · intro d; funext a; apply Fin.ext
    match a with
    | ⟨0, _⟩ => show win0_0.index t (0 : Fin 3) * 1 + 1 * 0 = win0_3.index t (0 : Fin 3) * 1 + 1 * (y 0).val; have hy : (y 0).val < 1 := (y 0).isLt; omega
    | ⟨1, _⟩ => show win0_0.index t (1 : Fin 3) * 1024 + 1 * (y 1).val = win0_3.index t (1 : Fin 3) * 1024 + 1 * (y 1).val; omega
    | ⟨2, _⟩ => show win0_0.index t (2 : Fin 3) * 64 + 1 * d.val = d.val; omega
  · intro j d; funext a; apply Fin.ext
    match a with
    | ⟨0, _⟩ => show win0_1.index t (0 : Fin 3) * 1 + 1 * 0 = win0_3.index t (0 : Fin 3) * 1 + 1 * (y 0).val; have hy : (y 0).val < 1 := (y 0).isLt; omega
    | ⟨1, _⟩ => show win0_1.index t (1 : Fin 3) * 2048 + 1 * j.val = j.val; omega
    | ⟨2, _⟩ => show win0_1.index t (2 : Fin 3) * 64 + 1 * d.val = d.val; omega
  · intro j d; funext a; apply Fin.ext
    match a with
    | ⟨0, _⟩ => show win0_2.index t (0 : Fin 3) * 1 + 1 * 0 = win0_3.index t (0 : Fin 3) * 1 + 1 * (y 0).val; have hy : (y 0).val < 1 := (y 0).isLt; omega
    | ⟨1, _⟩ => show win0_2.index t (1 : Fin 3) * 2048 + 1 * j.val = j.val; omega
    | ⟨2, _⟩ => show win0_2.index t (2 : Fin 3) * 64 + 1 * d.val = d.val; omega
  · show (y 2).val = win0_3.index t (2 : Fin 3) * 64 + 1 * (y 2).val; omega

/-! ## The blocks cover the result arrays -/

/-- An index is in point t's block of the weights array iff each coordinate is in the block's range on its axis. -/
theorem mem_blk4 (t : Fin cfg0.N) (i : S24x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v3_1).slice (win0_4.rect t)).set ↔ _
  rw [View.set_slice_whole, Rect.mem_set_unit]
  exact Iff.rfl

theorem mem_blk3 (t : Fin cfg0.N) (i : S24x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3_0).slice (win0_3.rect t)).set ↔ _
  rw [View.set_slice_whole, Rect.mem_set_unit]
  exact Iff.rfl

/-- Row r of slab g lies in the block of the point (g, r / 1024). -/
theorem cover4 (i : S24x2048x2048.Idx) : ∃ t : Fin cfg0.N, (cfg0.win 4).flush t = true ∧ i ∈ ((cfg0.win 4).blk t).view.set := by
  have hi0 : (i 0).val < 24 := (i 0).isLt
  have hi1 : (i 1).val < 2048 := (i 1).isLt
  have hi2 : (i 2).val < 2048 := (i 2).isLt
  obtain ⟨t, ht⟩ := idx_onto4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

theorem cover3 (i : S24x2048x64.Idx) : ∃ t : Fin cfg0.N, (cfg0.win 3).flush t = true ∧ i ∈ ((cfg0.win 3).blk t).view.set := by
  have hi0 : (i 0).val < 24 := (i 0).isLt
  have hi1 : (i 1).val < 2048 := (i 1).isLt
  have hi2 : (i 2).val < 64 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The result arrays after the region -/

theorem final4 (c : Dev nD) : (dats m 0 c).arrAt 4 cfg0.N = attn3 (V m c main_v0) (V m c main_v1) :=
  (dats m 0 c).arrAt_eq_of_cover 4 (attn3 (V m c main_v0) (V m c main_v1)) (fun t _ => flushed4_eq m c t) cover4

theorem final3 (c : Dev nD) : (dats m 0 c).arrAt 3 cfg0.N = out3 (V m c main_v0) (V m c main_v1) (V m c main_v2) :=
  (dats m 0 c).arrAt_eq_of_cover 3 (out3 (V m c main_v0) (V m c main_v1) (V m c main_v2)) (fun t _ => flushed3_eq m c t) cover3

/-! ## The host reshapes before the region -/

theorem V_main_v0 (c : Dev nD) : (V m c main_v0 : S24x2048x64.Idx → EReal)
    = shapeCast S24x2048x64 (m ((c : Thread nD τ).loc main_arg0)) shapeCasts_S2x12x2048x64_S24x2048x64 := by
  show StableHlo.after hostOps0 (fun b => m (c, b)) (Proc.devRef .tc main_v0) = _
  after_results
  rfl

theorem V_main_v1 (c : Dev nD) : (V m c main_v1 : S24x2048x64.Idx → EReal)
    = shapeCast S24x2048x64 (m ((c : Thread nD τ).loc main_arg1)) shapeCasts_S2x12x2048x64_S24x2048x64 := by
  show StableHlo.after hostOps0 (fun b => m (c, b)) (Proc.devRef .tc main_v1) = _
  after_results
  rfl

theorem V_main_v2 (c : Dev nD) : (V m c main_v2 : S24x2048x64.Idx → EReal)
    = shapeCast S24x2048x64 (m ((c : Thread nD τ).loc main_arg2)) shapeCasts_S2x12x2048x64_S24x2048x64 := by
  show StableHlo.after hostOps0 (fun b => m (c, b)) (Proc.devRef .tc main_v2) = _
  after_results
  rfl

/-! ## The host reshapes after the region -/

theorem tail_v5 (c : Dev nD) :
    Pipeline.afterTail₀ cfgs (dats m) 0 (V0 m) [hostOps1] c main_v5
      = shapeCast S2x12x2048x2048 ((dats m 0 c).arrAt 4 cfg0.N) shapeCasts_S24x2048x2048_S2x12x2048x2048 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 4
  show shapeCast S2x12x2048x2048 (Pipeline.withArrays spec0 c (V0 m c) (fun w => (dats m 0 c).arrAt w cfg0.N)
    (Proc.devRef .tc (Pipeline.arrRef spec0 4))) shapeCasts_S24x2048x2048_S2x12x2048x2048 = _
  rw [e]

theorem tail_v4 (c : Dev nD) :
    Pipeline.afterTail₀ cfgs (dats m) 0 (V0 m) [hostOps1] c main_v4
      = shapeCast S2x12x2048x64 ((dats m 0 c).arrAt 3 cfg0.N) shapeCasts_S24x2048x64_S2x12x2048x64 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  show shapeCast S2x12x2048x64 (Pipeline.withArrays spec0 c (V0 m c) (fun w => (dats m 0 c).arrAt w cfg0.N)
    (Proc.devRef .tc (Pipeline.arrRef spec0 3))) shapeCasts_S24x2048x64_S2x12x2048x64 = _
  rw [e]

/-! ## The two results of @main as functions of its arguments -/

theorem result_v5 (c : Dev nD) :
    Pipeline.afterTail₀ cfgs (dats m) 0 (V0 m) [hostOps1] c main_v5
      = attn4 (m ((c : Thread nD τ).loc main_arg0)) (m ((c : Thread nD τ).loc main_arg1)) := by
  rw [tail_v5, final4, V_main_v0, V_main_v1]
  exact attn4_of_flat shapeCasts_S2x12x2048x64_S24x2048x64 _ _ shapeCasts_S24x2048x2048_S2x12x2048x2048

theorem result_v4 (c : Dev nD) :
    Pipeline.afterTail₀ cfgs (dats m) 0 (V0 m) [hostOps1] c main_v4
      = out4 (m ((c : Thread nD τ).loc main_arg0)) (m ((c : Thread nD τ).loc main_arg1)) (m ((c : Thread nD τ).loc main_arg2)) := by
  rw [tail_v4, final3, V_main_v0, V_main_v1, V_main_v2]
  exact out4_of_flat shapeCasts_S2x12x2048x64_S24x2048x64 _ _ _ shapeCasts_S24x2048x64_S2x12x2048x64

/-! ## The run, read -/

/-- Every weakly fair execution of the kernel's @main terminates with the two results at the specification of the
    arguments, and the arguments unchanged. -/
theorem run : θ_run defs (onTc (τ := τ) (main (F := Ideal))) ⟨m, fun _ => 0, ρ⟩ fun r => ∀ c : Dev nD,
      r.2.mem ((c.tc : Thread nD τ).loc main_v4)
        = out4 (m ((c.tc : Thread nD τ).loc main_arg0)) (m ((c.tc : Thread nD τ).loc main_arg1)) (m ((c.tc : Thread nD τ).loc main_arg2))
      ∧ r.2.mem ((c.tc : Thread nD τ).loc main_v5)
        = attn4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans (result_v4 m c),
        ((h c).2 main_v5 (Pipeline.mem_restRefs_of main_v5 (by decide) (by decide))).trans (result_v5 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.ArrayValue

end
-- ==== Proof.RefValue.lean ====
/-
  The reference's two results are the specification, index by index, on real inputs.

  The reference takes the scores by one batched product scaled by 1/√64 (= 1/8), each row's maximum by a reduce from -∞
  joined once more with -∞ (which changes nothing), the shifted exponentials, their row sums from 0, and divides each
  exponential by its row's sum. That last quotient is the specification's product with the reciprocal exactly when the
  row sum is not zero, which is where the inputs being real numbers is used.
-/
import proofs.«424106_j35167192219950_3_alg».proof.Proof.Gen.ReferenceIdeal.Read
import proofs.«424106_j35167192219950_3_alg».proof.Proof.AttnSpec
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Attn

variable (q k v : S2x12x2048x64.Idx → EReal)

/-- The reference's scale is the word of 1/8. -/
theorem scale_stage (i : S_.Idx) : val_main_v1 (F := Ideal) i = c8 := by
  rw [val_main_v1_apply, val_main_cst_0_apply, val_main_v0_apply, val_main_cst_apply]
  exact scale_eq

/-- The scores. -/
theorem score_stage (b : Fin 2) (h : Fin 12) (r j : Fin 2048) :
    val_main_v4 (F := Ideal) q k (ix4 b h r j) = score4 q k b h r j := by
  rw [val_main_v4_apply, val_main_v2_apply, val_main_v3_apply, scale_stage]
  unfold score4
  refine congrArg (· * c8) (Finset.sum_congr rfl fun d _ => ?_)
  have el : lidx_main_v2 (ix4 b h r j) d = ix4 b h r d := funext fun a => Fin.ext (by
    match a with | ⟨0, _⟩ => rfl | ⟨1, _⟩ => rfl | ⟨2, _⟩ => rfl | ⟨3, _⟩ => rfl)
  have er : ridx_main_v2 (ix4 b h r j) d = ix4 b h j d := funext fun a => Fin.ext (by
    match a with | ⟨0, _⟩ => rfl | ⟨1, _⟩ => rfl | ⟨2, _⟩ => rfl | ⟨3, _⟩ => rfl)
  rw [el, er]

theorem red3 : S2x12x2048x2048.Reduces [3] S2x12x2048 := by decide

/-- A reduced index with the key coordinate put back. -/
theorem lift_key (b : Fin 2) (h : Fin 12) (r : Fin 2048) (j : Fin (S2x12x2048x2048.size 3)) :
    red3.lift (ix3 b h r) j = ix4 b h r (⟨j.val, j.isLt⟩ : Fin 2048) := by
  funext c; apply Fin.ext
  match c with
  | ⟨0, _⟩ => rfl
  | ⟨1, _⟩ => rfl
  | ⟨2, _⟩ => rfl
  | ⟨3, _⟩ => rfl

/-- Each row's maximum. -/
theorem max_stage (b : Fin 2) (h : Fin 12) (r : Fin 2048) :
    val_main_v7 (F := Ideal) q k (ix3 b h r) = rowMax (score4 q k b h r) := by
  rw [val_main_v7_apply, val_main_v6_apply, val_main_cst_2_apply]
  unfold val_main_v5
  rw [Host.reduce_eq_fold_single FloatOps.maximumf _ _ reducesTo_S2x12x2048x2048_S2x12x2048_d3 red3 h_S_]
  have e : (val_main_v4 (F := Ideal) q k ∘ red3.lift (ix3 b h r)) = score4 q k b h r := funext fun j => by
    show val_main_v4 (F := Ideal) q k (red3.lift (ix3 b h r) j) = _
    rw [lift_key, score_stage]
    rfl
  rw [e]
  show max (Ideal.ofBits .f32 0xFF800000#32) ((Finset.univ : Finset (Fin 2048)).fold max (Ideal.ofBits .f32 0xFF800000#32) (score4 q k b h r)) = _
  rw [ofBits_negInf, max_bot_left]
  rfl

/-- The shifted exponentials. -/
theorem exp_stage (b : Fin 2) (h : Fin 12) (r j : Fin 2048) :
    val_main_v11 (F := Ideal) q k (ix4 b h r j) = expRow (score4 q k b h r) j := by
  rw [val_main_v11_apply, val_main_v10_apply, val_main_v9_apply, val_main_v8_apply, score_stage]
  have e : idx_main_v8 (idx_main_v9 (ix4 b h r j)) = ix3 b h r := funext fun a => Fin.ext (by
    match a with | ⟨0, _⟩ => rfl | ⟨1, _⟩ => rfl | ⟨2, _⟩ => rfl)
  rw [e, max_stage]
  rfl

/-- Each row's sum of exponentials. -/
theorem sum_stage (b : Fin 2) (h : Fin 12) (r : Fin 2048) :
    val_main_v12 (F := Ideal) q k (ix3 b h r) = denom (score4 q k b h r) := by
  rw [val_main_v12_apply, val_main_cst_3_apply]
  show Ideal.ofBits .f32 0x00000000#32 + _ = _
  rw [Ideal.ofBits_zero_f32, zero_add]
  unfold denom
  refine Finset.sum_congr rfl fun j _ => ?_
  have e : idx_main_v12 (ix3 b h r) j = ix4 b h r j := funext fun a => Fin.ext (by
    match a with | ⟨0, _⟩ => rfl | ⟨1, _⟩ => rfl | ⟨2, _⟩ => rfl | ⟨3, _⟩ => rfl)
  rw [e, exp_stage]

/-- The weights, as the reference spells them: a quotient per entry. -/
theorem div_stage (b : Fin 2) (h : Fin 12) (r j : Fin 2048) :
    val_main_v15 (F := Ideal) q k (ix4 b h r j) = Ideal.div (expRow (score4 q k b h r) j) (denom (score4 q k b h r)) := by
  rw [val_main_v15_apply, val_main_v14_apply, val_main_v13_apply, exp_stage]
  have e : idx_main_v13 (idx_main_v14 (ix4 b h r j)) = ix3 b h r := funext fun a => Fin.ext (by
    match a with | ⟨0, _⟩ => rfl | ⟨1, _⟩ => rfl | ⟨2, _⟩ => rfl)
  rw [e, sum_stage]
  rfl

/-- On real inputs the reference's weights are the specification's. -/
theorem attn_eq (hq : ∀ i, IsReal (q i)) (hk : ∀ i, IsReal (k i)) : val_main_v15 (F := Ideal) q k = attn4 q k := by
  funext i
  obtain ⟨b, h, r, j, rfl⟩ : ∃ (b : Fin 2) (h : Fin 12) (r : Fin 2048) (j : Fin 2048), i = ix4 b h r j :=
    ⟨i 0, i 1, i 2, i 3, eq_ix4 i⟩
  rw [div_stage, attn4_eq_div q k hq hk]

/-- And so are its attended values. -/
theorem out_eq (hq : ∀ i, IsReal (q i)) (hk : ∀ i, IsReal (k i)) : val_main_v16 (F := Ideal) q k v = out4 q k v := by
  funext i
  obtain ⟨b, h, r, d, rfl⟩ : ∃ (b : Fin 2) (h : Fin 12) (r : Fin 2048) (d : Fin 64), i = ix4 b h r d :=
    ⟨i 0, i 1, i 2, i 3, eq_ix4 i⟩
  rw [val_main_v16_apply, attn_eq q k hq hk]
  unfold out4
  refine Finset.sum_congr rfl fun j _ => ?_
  have el : lidx_main_v16 (ix4 b h r d) j = ix4 b h r j := funext fun a => Fin.ext (by
    match a with | ⟨0, _⟩ => rfl | ⟨1, _⟩ => rfl | ⟨2, _⟩ => rfl | ⟨3, _⟩ => rfl)
  have er : ridx_main_v16 (ix4 b h r d) j = ix4 b h j d := funext fun a => Fin.ext (by
    match a with | ⟨0, _⟩ => rfl | ⟨1, _⟩ => rfl | ⟨2, _⟩ => rfl | ⟨3, _⟩ => rfl)
  rw [el, er]

end Cert.ReferenceIdeal.RefValue

end
-- ==== Proof.InputsReal.lean ====
/-
  What the precondition says of the inputs: every entry of the three arrays is a real number.

  The precondition is the conjunction of three tests "every |x| is below +∞", each an and-reduction of an elementwise
  comparison. An and-reduction that came out 1 met only 1s, and |x| < +∞ on the extended reals rules out both infinities.
-/
import proofs.«424106_j35167192219950_3_alg».proof.Pre_finite_inputs
import proofs.«424106_j35167192219950_3_alg».proof.Proof.LibSoftmaxRow
import Idealize.ShloMosaic.Lib.ReduceAll
import Idealize.ShloMosaic.Lib.ValueIdx
import Idealize.ShloMosaic.PureOps.Ideal.Laws

noncomputable section

namespace Cert.Pre_finite_inputs.Meaning

open Idealize.ShloMosaic Cert.Pre_finite_inputs Cert.Attn

instance : Subsingleton S_.Idx := ⟨fun a b => funext fun d => d.elim0⟩

theorem ofBits_posInf : Ideal.ofBits .f32 0x7F800000#32 = ⊤ := by
  simp [Ideal.ofBits, Ideal.ieee]

/-- |x| < +∞ leaves only the real numbers. -/
theorem isReal_of_abs_lt (x : EReal) (h : Ideal.cmp .olt (max x (-x)) (Ideal.ofBits .f32 0x7F800000#32) = 1#1) : IsReal x := by
  rw [ofBits_posInf] at h
  have hlt : max x (-x) < ⊤ := by
    by_contra hn
    simp [Ideal.cmp, hn] at h
  constructor
  · rintro rfl; simp at hlt
  · rintro rfl; simp at hlt

variable [Facts]

/-- One of the three tests: an array all of whose |entries| compare below +∞ holds real numbers. -/
theorem real_of_all (a : FVec Ideal S2x12x2048x64 .f32)
    (h : Host.reduce IntOp.andi (cmpf .olt (Host.absf a) (broadcastInDim S2x12x2048x64 ![] Facts.bcast_S_S2x12x2048x64 (constant (F := Ideal) S_ .f32 0x7F800000#32)))
      (constantI S_ 1 1#1) Facts.reducesTo_S2x12x2048x64_S_d0_1_2_3 Facts.h_S_ ValueIdx.ix0 = 1#1) (i : S2x12x2048x64.Idx) : IsReal (a i) := by
  have hi := Host.reduce_andi_all _ _ _ _ _ h i
  exact isReal_of_abs_lt (a i) hi

/-- The precondition, read: all three inputs hold real numbers. -/
theorem all_real (a0 a1 a2 : FVec Ideal S2x12x2048x64 .f32) (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.Pre_finite_inputs.Meaning

end
-- ==== Proof.lean ====
/-
  Scaled dot-product attention over q, k, v : [2, 12, 2048, 64], as a Pallas kernel tiled over (slab, half of the query rows),
  against the unfused jnp reference: both return the attended values [2, 12, 2048, 64] and the weights [2, 12, 2048, 2048].

  On the extended reals both programs compute, for each (batch, head, row r),
    s j = (∑ d, q[r,d] · k[j,d]) · (1/8),   M = max s,   e j = exp (s j - M),   L = ∑ e,
    weights[r,j] = e j / L,   values[r,d] = ∑ j, weights[r,j] · v[j,d].
  They differ in three spellings, none of which changes the value on real inputs:
    * the scale: the kernel multiplies by the word of 1/8, the reference by 1/√64, and 64 = 8²;
    * the maximum: the reference joins the row maximum once more with -∞;
    * the weights: the kernel takes one reciprocal 1/L per row and multiplies, the reference divides each entry by L.
      On the extended reals x / L is x · L⁻¹ only off L = 0, and L > 0 because the inputs are real numbers: every score
      is then real, the maximum is not +∞, every exponential is positive (the precondition is used here and only here).
  The matrix products and the sums are the same sums in another order or tiling, and a change of tiling is invisible once
  each point's written-back block is shown to be its block of one function of the whole arrays.

  The modules: LibSoftmaxRow (the row law and the constants), LibColumn (a kept reduced axis read at an index), AttnSpec
  (the specification, with batch and head flattened and apart), BlockAttn (the kernel body on one point's blocks, at an
  index), KernelValue (blocks to arrays, the host reshapes,
  the kernel's run), RefValue (the reference's stages are the specification), InputsReal (the precondition read), and the
  claims below.
-/
import proofs.«424106_j35167192219950_3_alg».proof.Defs
import proofs.«424106_j35167192219950_3_alg».proof.Proof.Gen.Kernel
import proofs.«424106_j35167192219950_3_alg».proof.Proof.Gen.Kernel.Skeleton
import proofs.«424106_j35167192219950_3_alg».proof.Proof.Gen.Kernel.Launch
import proofs.«424106_j35167192219950_3_alg».proof.Proof.Gen.Kernel.Points
import proofs.«424106_j35167192219950_3_alg».proof.Proof.Gen.Kernel.Frame
import proofs.«424106_j35167192219950_3_alg».proof.Proof.Gen.KernelIdeal
import proofs.«424106_j35167192219950_3_alg».proof.Proof.Gen.KernelIdeal.Skeleton
import proofs.«424106_j35167192219950_3_alg».proof.Proof.Gen.KernelIdeal.Launch
import proofs.«424106_j35167192219950_3_alg».proof.Proof.Gen.KernelIdeal.Points
import proofs.«424106_j35167192219950_3_alg».proof.Proof.Gen.KernelIdeal.Frame
import proofs.«424106_j35167192219950_3_alg».proof.Proof.Gen.ReferenceIdeal
import proofs.«424106_j35167192219950_3_alg».proof.Proof.Gen.Pre_finite_inputs
import proofs.«424106_j35167192219950_3_alg».proof.Proof.Gen.ReferenceIdeal.Run
import proofs.«424106_j35167192219950_3_alg».proof.Proof.Gen.ReferenceIdeal.Read
import proofs.«424106_j35167192219950_3_alg».proof.Proof.KernelValue
import proofs.«424106_j35167192219950_3_alg».proof.Proof.RefValue
import proofs.«424106_j35167192219950_3_alg».proof.Proof.InputsReal
import Idealize.ShloMosaic.Adequacy
import Idealize.ShloMosaic.Init

noncomputable section

namespace Cert.Proof

open Idealize.ShloMosaic Idealize.SL.Sem Cert.Attn

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree and are real numbers, both programs end with the attended values and the weights of the
    specification: the kernel by its run read block by block, the reference stage by stage. -/
theorem algebraic : Cert.algebraic_KernelIdeal_ReferenceIdeal := by
  intro m ρ m' ρ' hpre hagree
  refine ⟨fun c => out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ?_) (Cert.ReferenceIdeal.Value.run (F := Ideal) m' ρ')
  obtain ⟨hq, hk, _⟩ := Cert.Pre_finite_inputs.Meaning.all_real _ _ _ (hpre c)
  obtain ⟨h16, h15, ha0, ha1, ha2⟩ := h c
  refine ⟨?_, ?_, ha0, ha1, ha2⟩
  · rw [h16, Cert.ReferenceIdeal.Read.val_main_v16_eq, (hagree c).1, (hagree c).2.1, (hagree c).2.2]
    exact Cert.ReferenceIdeal.RefValue.out_eq _ _ _ hq hk
  · rw [h15, Cert.ReferenceIdeal.Read.val_main_v15_eq, (hagree c).1, (hagree c).2.1]
    exact Cert.ReferenceIdeal.RefValue.attn_eq _ _ hq hk

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
